-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel

variable [Facts]

def fn {F : FTy → Type} [FloatOps F] (main_arg0 : FVec F S4x4096x256 .f32) (main_arg1 : FVec F S4x4096x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  main_v8
-- ==== Kernel.lean ====
abbrev S4x4096x256 : Shape := ⟨3, ![4, 4096, 256]⟩
abbrev S4x1x128 : Shape := ⟨3, ![4, 1, 128]⟩
abbrev S1x1024x256 : Shape := ⟨3, ![1, 1024, 256]⟩
abbrev S1x1x128 : Shape := ⟨3, ![1, 1, 128]⟩
abbrev S1024x1 : Shape := ⟨2, ![1024, 1]⟩
abbrev S1x1 : Shape := ⟨2, ![1, 1]⟩
abbrev S1024x256 : Shape := ⟨2, ![1024, 256]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x128 : Shape := ⟨2, ![1, 128]⟩
abbrev S4x1x1 : Shape := ⟨3, ![4, 1, 1]⟩
abbrev S4 : Shape := ⟨1, ![4]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x1x128, .f32⟩
  | .hbm, ⟨3, _⟩ => ⟨S4x1x1, .f32⟩
  | .hbm, ⟨4, _⟩ => ⟨S4, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1x128, .f32⟩
  | .local _ .vmem, ⟨5, _⟩ => ⟨S1x1x128, .f32⟩
  | .local _ .vmem, ⟨6, _⟩ => ⟨S1024x1, .f32⟩
  | .local _ .vmem, ⟨7, _⟩ => ⟨S1x1, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond4 (i : grid0.Coords) : BitVec 1 :=
  let arg1 : BitVec 32 := BitVec.ofNat 32 (i 1).val
  let c3_i32_19 : BitVec 32 := 3#32
  let v41 : BitVec 1 := Scalar.cmpi .eq arg1 c3_i32_19
  let arg2 : BitVec 32 := BitVec.ofNat 32 (i 2).val
  let c3_i32_20 : BitVec 32 := 3#32
  let v42 : BitVec 1 := Scalar.cmpi .eq arg2 c3_i32_20
  let v43 : BitVec 1 := Scalar.andi v41 v42
  let v44 : BitVec 32 := Scalar.extui v43
  let c0_i32_21 : BitVec 32 := 0#32
  let v45 : BitVec 1 := Scalar.cmpi .ne v44 c0_i32_21
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  transposes_S1024x256_p1_0_S256x1024 : S1024x256.Transposes [1, 0] S256x1024
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1_S1 : S1024x1.Reduces [0] S1
  shapeCasts_S1_S1x1 : S1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S4x4096x256.size a
  hwx0_1 : ∀ i : grid0.Coords, EltTy.bits .f32 = 32 ∨ (Rect.block (s := S4x4096x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S4 : Shape := ⟨1, ![4]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S4x4096x256, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S4x4096x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  reducesTo_S4x4096x256_S4x4096_d2 : S4x4096x256.ReducesTo [2] S4x4096
  h_S_ : 0 < S_.numel
  bcast_S4x4096_S4x4096x1_0_1 : S4x4096.BroadcastsInDim S4x4096x1 (![0, 1] : Fin 2 → Fin S4x4096x1.rank)
  transposes_S4x4096x1_S4x1x4096_0_2_1 : S4x4096x1.Transposes [0, 2, 1] S4x1x4096
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S4_d1 : S4x4096.ReducesTo [1] S4
  bcast_S_S4 : S_.BroadcastsInDim S4 (![] : Fin 0 → Fin S4.rank)
  dot_S4x4096x256_S4x4096x256_S4x4096x4096_2_2_1_1_0_0_wf : DotDims.WF S4x4096x256 S4x4096x256 S4x4096x4096 [2] [2] [1] [1] [0] [0]

variable [Facts₀]

def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf

class Facts : Prop extends Facts₀ where

variable [Facts]
-- ==== Proof.Pieces.lean ====
import proofs.«109294_j17540646437408_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each control case of the body leaves in the two carried accumulators and in the output block, as the body's
    pure payloads of what it loaded: the column of running minima is restarted (cases A, D: from the `+∞` column) or
    continued (B, C, E); the running sum is restarted (A), kept (B, D) or increased by the column's total (C, E); case E
    also stores the quotient into the output block. -/

namespace Cert.KernelIdeal.Pieces
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A (first point of a batch): the column is the tile's minima taken against the `+∞` column. -/
theorem colA (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : cond0_0 i) (hc1 : cond0_1 i) (hc2 : ¬cond0_2 i) (hc3 : ¬cond0_3 i)
    (x0 x1 : Vec F S1x1024x256 .f32) :
    sout0_A_0 c i a3 h3 a4 h4 a5 h5 a6 h6 a7 h7 hc0 hc1 hc2 hc3 x0 x1 = k0_pay1 (k0_pay6 x0 x1 k0_pay5) := by
  unfold sout0_A_0
  rw [View.read_writes_eq_canon _ _ _ (scover0_A_0 c i a3 h3 a4 h4 a5 h5 a6 h6 a7 h7 hc0 hc1 hc2 hc3 x0 x1)]
  unfold kernelRun0_A
  dsimp only
  sl_unfold_words
  rw [View.canon_cons_unit_zero (S := S1024x1) hz2, View.readCov_unit_zero (S := S1024x1) _ hz2]
  simp only [View.readAt_eq_ld, h3.read_unread, h4.read_unread, h6.read_unread, h7.read_unread, View.ld_unit_zero (S := S1x1024x256) hz3, View.ld_unit_zero (S := S1024x1) hz2, View.ld_unit_zero (S := S1x1) hz2, View.readCov_unit_zero (S := S1024x1) _ hz2, View.readCov_unit_zero (S := S1x1) _ hz2]
/-- Case A: the running sum is the zero it was reset to. -/
theorem sumA (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : cond0_0 i) (hc1 : cond0_1 i) (hc2 : ¬cond0_2 i) (hc3 : ¬cond0_3 i)
    (x0 x1 : Vec F S1x1024x256 .f32) :
    sout0_A_1 c i a3 h3 a4 h4 a5 h5 a6 h6 a7 h7 hc0 hc1 hc2 hc3 x0 x1 = k0_pay4 := by
  unfold sout0_A_1
  rw [View.read_writes_eq_canon _ _ _ (scover0_A_1 c i a3 h3 a4 h4 a5 h5 a6 h6 a7 h7 hc0 hc1 hc2 hc3 x0 x1)]
  unfold kernelRun0_A
  dsimp only
  sl_unfold_words
  rw [View.canon_unit_zero hz2]
/-- Case D (first column tile of a later row tile): the column restarts as in case A. -/
theorem colD (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : ¬cond0_0 i) (hc1 : cond0_1 i) (hc2 : ¬cond0_2 i) (hc3 : ¬cond0_3 i)
    (x0 x1 : Vec F S1x1024x256 .f32) (xs1 : Vec F S1x1 .f32) :
    sout0_D_0 c i a3 h3 a4 h4 a5 h5 a6 h6 a7 h7 hc0 hc1 hc2 hc3 x0 x1 xs1 = k0_pay1 (k0_pay6 x0 x1 k0_pay5) := by
  unfold sout0_D_0
  rw [View.read_writes_eq_canon _ _ _ (scover0_D_0 c i a3 h3 a4 h4 a5 h5 a6 h6 a7 h7 hc0 hc1 hc2 hc3 x0 x1 xs1)]
  unfold kernelRun0_D
  dsimp only
  sl_unfold_words
  rw [View.canon_cons_unit_zero (S := S1024x1) hz2, View.readCov_unit_zero (S := S1024x1) _ hz2]
  simp only [View.readAt_eq_ld, h3.read_unread, h4.read_unread, h6.read_unread, h7.read_unread, View.ld_unit_zero (S := S1x1024x256) hz3, View.ld_unit_zero (S := S1024x1) hz2, View.ld_unit_zero (S := S1x1) hz2, View.readCov_unit_zero (S := S1024x1) _ hz2, View.readCov_unit_zero (S := S1x1) _ hz2]
/-- Case B (a middle column tile): the column continues from what the point before left. -/
theorem colB (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : ¬cond0_0 i) (hc1 : ¬cond0_1 i) (hc2 : ¬cond0_2 i) (hc3 : ¬cond0_3 i)
    (x0 x1 : Vec F S1x1024x256 .f32) (xs0 : Vec F S1024x1 .f32) (xs1 : Vec F S1x1 .f32) :
    sout0_B_0 c i a3 h3 a4 h4 a5 h5 a6 h6 a7 h7 hc0 hc1 hc2 hc3 x0 x1 xs0 xs1 = k0_pay1 (k0_pay6 x0 x1 xs0) := by
  unfold sout0_B_0
  rw [View.read_writes_eq_canon _ _ _ (scover0_B_0 c i a3 h3 a4 h4 a5 h5 a6 h6 a7 h7 hc0 hc1 hc2 hc3 x0 x1 xs0 xs1)]
  unfold kernelRun0_B
  dsimp only
  sl_unfold_words
  rw [View.canon_unit_zero hz2]
  simp only [View.readAt_eq_ld, h3.read_unread, h4.read_unread, h6.read_unread, h7.read_unread, View.ld_unit_zero (S := S1x1024x256) hz3, View.ld_unit_zero (S := S1024x1) hz2, View.ld_unit_zero (S := S1x1) hz2, View.readCov_unit_zero (S := S1024x1) _ hz2, View.readCov_unit_zero (S := S1x1) _ hz2]
/-- Case C (last column tile of a row tile): the column continues; -/
theorem colC (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : ¬cond0_0 i) (hc1 : ¬cond0_1 i) (hc2 : cond0_2 i) (hc3 : ¬cond0_3 i)
    (x0 x1 : Vec F S1x1024x256 .f32) (xs0 : Vec F S1024x1 .f32) (xs1 : Vec F S1x1 .f32) :
    sout0_C_0 c i a3 h3 a4 h4 a5 h5 a6 h6 a7 h7 hc0 hc1 hc2 hc3 x0 x1 xs0 xs1 = k0_pay1 (k0_pay6 x0 x1 xs0) := by
  unfold sout0_C_0
  rw [View.read_writes_eq_canon _ _ _ (scover0_C_0 c i a3 h3 a4 h4 a5 h5 a6 h6 a7 h7 hc0 hc1 hc2 hc3 x0 x1 xs0 xs1)]
  unfold kernelRun0_C
  dsimp only
  sl_unfold_words
  rw [View.canon_unit_zero hz2]
  simp only [View.readAt_eq_ld, h3.read_unread, h4.read_unread, h6.read_unread, h7.read_unread, View.ld_unit_zero (S := S1x1024x256) hz3, View.ld_unit_zero (S := S1024x1) hz2, View.ld_unit_zero (S := S1x1) hz2, View.readCov_unit_zero (S := S1024x1) _ hz2, View.readCov_unit_zero (S := S1x1) _ hz2]
/-- and the running sum grows by the finished column's total. -/
theorem sumC (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : ¬cond0_0 i) (hc1 : ¬cond0_1 i) (hc2 : cond0_2 i) (hc3 : ¬cond0_3 i)
    (x0 x1 : Vec F S1x1024x256 .f32) (xs0 : Vec F S1024x1 .f32) (xs1 : Vec F S1x1 .f32) :
    sout0_C_1 c i a3 h3 a4 h4 a5 h5 a6 h6 a7 h7 hc0 hc1 hc2 hc3 x0 x1 xs0 xs1 = k0_pay2 (k0_pay1 (k0_pay6 x0 x1 xs0)) xs1 := by
  unfold sout0_C_1
  rw [View.read_writes_eq_canon _ _ _ (scover0_C_1 c i a3 h3 a4 h4 a5 h5 a6 h6 a7 h7 hc0 hc1 hc2 hc3 x0 x1 xs0 xs1)]
  unfold kernelRun0_C
  dsimp only
  sl_unfold_words
  rw [View.canon_unit_zero hz2]
  simp only [View.readAt_eq_ld, h3.read_unread, h4.read_unread, h6.read_unread, h7.read_unread, View.ld_unit_zero (S := S1x1024x256) hz3, View.ld_unit_zero (S := S1024x1) hz2, View.ld_unit_zero (S := S1x1) hz2, View.readCov_unit_zero (S := S1024x1) _ hz2, View.readCov_unit_zero (S := S1x1) _ hz2]
/-- Case E (last point of a batch): as case C for the column -/
theorem colE (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : ¬cond0_0 i) (hc1 : ¬cond0_1 i) (hc2 : cond0_2 i) (hc3 : cond0_3 i)
    (x0 x1 : Vec F S1x1024x256 .f32) (xs0 : Vec F S1024x1 .f32) (xs1 : Vec F S1x1 .f32) :
    sout0_E_0 c i a3 h3 a4 h4 a5 h5 a6 h6 a7 h7 hc0 hc1 hc2 hc3 x0 x1 xs0 xs1 = k0_pay1 (k0_pay6 x0 x1 xs0) := by
  unfold sout0_E_0
  rw [View.read_writes_eq_canon _ _ _ (scover0_E_0 c i a3 h3 a4 h4 a5 h5 a6 h6 a7 h7 hc0 hc1 hc2 hc3 x0 x1 xs0 xs1)]
  unfold kernelRun0_E
  dsimp only
  sl_unfold_words
  rw [View.canon_unit_zero hz2]
  simp only [View.readAt_eq_ld, h3.read_unread, h4.read_unread, h6.read_unread, h7.read_unread, View.ld_unit_zero (S := S1x1024x256) hz3, View.ld_unit_zero (S := S1024x1) hz2, View.ld_unit_zero (S := S1x1) hz2, View.readCov_unit_zero (S := S1024x1) _ hz2, View.readCov_unit_zero (S := S1x1) _ hz2]
/-- and for the running sum, -/
theorem sumE (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : ¬cond0_0 i) (hc1 : ¬cond0_1 i) (hc2 : cond0_2 i) (hc3 : cond0_3 i)
    (x0 x1 : Vec F S1x1024x256 .f32) (xs0 : Vec F S1024x1 .f32) (xs1 : Vec F S1x1 .f32) :
    sout0_E_1 c i a3 h3 a4 h4 a5 h5 a6 h6 a7 h7 hc0 hc1 hc2 hc3 x0 x1 xs0 xs1 = k0_pay2 (k0_pay1 (k0_pay6 x0 x1 xs0)) xs1 := by
  unfold sout0_E_1
  rw [View.read_writes_eq_canon _ _ _ (scover0_E_1 c i a3 h3 a4 h4 a5 h5 a6 h6 a7 h7 hc0 hc1 hc2 hc3 x0 x1 xs0 xs1)]
  unfold kernelRun0_E
  dsimp only
  sl_unfold_words
  rw [View.canon_unit_zero hz2]
  simp only [View.readAt_eq_ld, h3.read_unread, h4.read_unread, h6.read_unread, h7.read_unread, View.ld_unit_zero (S := S1x1024x256) hz3, View.ld_unit_zero (S := S1024x1) hz2, View.ld_unit_zero (S := S1x1) hz2, View.readCov_unit_zero (S := S1024x1) _ hz2, View.readCov_unit_zero (S := S1x1) _ hz2]
/-- and the output block receives the quotient of that sum. -/
theorem outE (c : Dev nD) (i : grid0.Coords) (a3 : Memref sig .tc .vmem S1x1024x256 .f32) (h3 : a3.IsWhole) (a4 : Memref sig .tc .vmem S1x1024x256 .f32) (h4 : a4.IsWhole) (a5 : Memref sig .tc .vmem S1x1x128 .f32) (h5 : a5.IsWhole) (a6 : Memref sig .tc .vmem S1024x1 .f32) (h6 : a6.IsWhole) (a7 : Memref sig .tc .vmem S1x1 .f32) (h7 : a7.IsWhole) (hc0 : ¬cond0_0 i) (hc1 : ¬cond0_1 i) (hc2 : cond0_2 i) (hc3 : cond0_3 i)
    (x0 x1 : Vec F S1x1024x256 .f32) (xs0 : Vec F S1024x1 .f32) (xs1 : Vec F S1x1 .f32) :
    out0_E_2 c i a3 h3 a4 h4 a5 h5 a6 h6 a7 h7 hc0 hc1 hc2 hc3 x0 x1 xs0 xs1 = k0_pay3 (k0_pay2 (k0_pay1 (k0_pay6 x0 x1 xs0)) xs1) := by
  unfold out0_E_2
  rw [View.read_writes_eq_canon _ _ _ (cover0_E_2 c i a3 h3 a4 h4 a5 h5 a6 h6 a7 h7 hc0 hc1 hc2 hc3 x0 x1 xs0 xs1)]
  unfold kernelRun0_E
  dsimp only
  sl_unfold_words
  rw [View.canon_unit_zero hz3]
  simp only [View.readAt_eq_ld, h3.read_unread, h4.read_unread, h6.read_unread, h7.read_unread, View.ld_unit_zero (S := S1x1024x256) hz3, View.ld_unit_zero (S := S1024x1) hz2, View.ld_unit_zero (S := S1x1) hz2, View.readCov_unit_zero (S := S1024x1) _ hz2, View.readCov_unit_zero (S := S1x1) _ hz2]
end Cert.KernelIdeal.Pieces

end
-- ==== Proof.Spec.lean ====
/-
  The function both programs compute, over the extended reals.

  For one batch, with source rows `X i` and target rows `Y j` (4096 of each, 256 long), the squared-distance cost
  clipped at zero is `cost (X i) (Y j) = max ((‖X i‖² + ‖Y j‖²) - 2 · ⟨X i, Y j⟩) 0`, and the result is the mean over
  `i` of the row minimum `min_j cost (X i) (Y j)`: the sum from zero, divided by 4096.

  The tiled computation visits 64 points `n = 16·b + 4·p + o` (batch `b`, row tile `p`, column tile `o`, tiles of 1024)
  and carries two accumulators: a column of 1024 running row minima, restarted from `+∞` when `o = 0`, and one running
  sum, restarted from zero when `p = o = 0` and increased by the column's total when `o = 3`. `carried` is that
  recursion over an arbitrary family `T n r` of tile minima; `tileMin` is the family the programs' data give.
-/
import Idealize.ShloMosaic.PureOps.Ideal.Laws
import Idealize.ShloMosaic.Lib.ValueIdx

noncomputable section

open scoped BigOperators
open Idealize.ShloMosaic Idealize.ShloMosaic.ValueIdx

namespace Cert.MeanRowMin

/-- The four float constants of the computation, as the words both programs spell: `+∞`, `0`, `2`, `4096`. -/
abbrev inf32 : EReal := Ideal.ofBits .f32 0x7F800000#32
abbrev zero32 : EReal := Ideal.ofBits .f32 0x00000000#32
abbrev two32 : EReal := Ideal.ofBits .f32 0x40000000#32
abbrev n32 : EReal := Ideal.ofBits .f32 0x45800000#32

/-- The clipped squared distance of two rows. -/
def cost (x y : Fin 256 → EReal) : EReal :=
  max (((∑ k, x k * x k) + (∑ k, y k * y k)) - two32 * (∑ k, x k * y k)) zero32

/-- One batch's result: the mean over the source rows of the minimum cost against every target row. -/
def meanRowMin (X Y : Fin 4096 → Fin 256 → EReal) : EReal :=
  Ideal.div (zero32 + ∑ i : Fin 4096, (Finset.univ : Finset (Fin 4096)).fold min inf32 (fun j => cost (X i) (Y j))) n32

/-- Row `r` of tile `p` (taken modulo the four tiles) among the 4096 rows. -/
def tileRow (p : ℕ) (r : Fin 1024) : Fin 4096 := ⟨1024 * (p % 4) + r.val, by have := r.isLt; omega⟩

/-- The batch of point `n`. -/
def batchOf (n : ℕ) : Fin 4 := ⟨(n / 16) % 4, Nat.mod_lt _ (by decide)⟩

/-- The tile minimum of point `n` at row `r`: the minimum from `+∞` over the 1024 target rows of column tile `n % 4` of the
    cost against source row `r` of row tile `(n / 4) % 4`, in batch `n / 16`. -/
def tileMin (A B : Fin 4 → Fin 4096 → Fin 256 → EReal) (n : ℕ) (r : Fin 1024) : EReal :=
  (Finset.univ : Finset (Fin 1024)).fold min inf32
    (fun q => cost (A (batchOf n) (tileRow (n / 4) r)) (B (batchOf n) (tileRow n q)))

/-- The two accumulators after point `n`, over a family `T` of tile minima: the column of running minima and the running sum. -/
def carried (T : ℕ → Fin 1024 → EReal) : ℕ → (Fin 1024 → EReal) × EReal
  | 0 => (fun r => min inf32 (T 0 r), zero32)
  | n + 1 =>
    let col : Fin 1024 → EReal := fun r => min (if (n + 1) % 4 = 0 then inf32 else (carried T n).1 r) (T (n + 1) r)
    let s : EReal := if (n + 1) % 16 = 0 then zero32 else (carried T n).2
    (col, if (n + 1) % 4 = 3 then s + ∑ r, col r else s)

end Cert.MeanRowMin

end
-- ==== Proof.Fold.lean ====
/-
  The tiled recursion computes the mean row minimum.

  The recursion \`carried T\` visits the points \`n = 16·b + 4·p + o\`. Within one block of four points \`4k, …, 4k+3\` the
  column is restarted at the first point and then only takes minima, so after the block's last point it holds, at row
  \`r\`, the minimum from the start value of \`T (4k) r, …, T (4k+3) r\`. Within one batch of sixteen points the sum is
  restarted at the first point and increased by the column's total after each of the four blocks.

  For the tile minima of the data, the four tiles \`o = 0, …, 3\` of 1024 target rows cover the 4096 target rows, so the
  block's column at row \`r\` is the minimum over every target row of the cost against source row \`1024·p + r\`; and the
  four tiles \`p = 0, …, 3\` of 1024 source rows cover the 4096 source rows, so the batch's sum is the sum over every
  source row. Nothing here depends on what the start values of the minimum and of the sum are.
-/
import proofs.«109294_j17540646437408_1_alg».proof.Proof.Spec
import Mathlib.Order.Basic
import Mathlib.Data.Finset.Fold
import Mathlib.Data.Fintype.BigOperators
import Mathlib.Algebra.BigOperators.Fin
import Mathlib.Algebra.BigOperators.Group.Finset.Defs

noncomputable section

open scoped BigOperators
open Idealize.ShloMosaic

namespace Cert.MeanRowMin

/-! ## The recursion, one point at a time -/

/-- At the first point of a block the column is restarted. -/
theorem carried_fst_restart (T : ℕ → Fin 1024 → EReal) {k : ℕ} (h4 : k % 4 = 0) (r : Fin 1024) :
    (carried T k).1 r = min inf32 (T k r) := by
  cases k with
  | zero => rfl
  | succ n => simp only [carried, h4, if_true]

/-- At every other point the column takes the minimum with the point's tile minimum. -/
theorem carried_fst_step (T : ℕ → Fin 1024 → EReal) {n k : ℕ} (hk : k = n + 1) (h4 : k % 4 ≠ 0) (r : Fin 1024) :
    (carried T k).1 r = min ((carried T n).1 r) (T k r) := by
  subst hk
  simp only [carried, h4, if_false]

/-- At the first point of a batch the sum is restarted. -/
theorem carried_snd_restart (T : ℕ → Fin 1024 → EReal) {k : ℕ} (h16 : k % 16 = 0) : (carried T k).2 = zero32 := by
  cases k with
  | zero => rfl
  | succ n =>
    have h4 : (n + 1) % 4 ≠ 3 := by omega
    simp only [carried, h16, h4, if_true, if_false]

/-- Away from a batch's first point and a block's last point the sum is kept. -/
theorem carried_snd_keep (T : ℕ → Fin 1024 → EReal) {n k : ℕ} (hk : k = n + 1) (h16 : k % 16 ≠ 0) (h4 : k % 4 ≠ 3) :
    (carried T k).2 = (carried T n).2 := by
  subst hk
  simp only [carried, h16, h4, if_false]

/-- At a block's last point the sum is increased by the column's total. -/
theorem carried_snd_add (T : ℕ → Fin 1024 → EReal) {n k : ℕ} (hk : k = n + 1) (h4 : k % 4 = 3) :
    (carried T k).2 = (carried T n).2 + ∑ r, (carried T k).1 r := by
  subst hk
  have h16 : (n + 1) % 16 ≠ 0 := by omega
  simp only [carried, h16, h4, if_true, if_false]

/-! ## The recursion, one block at a time -/

/-- After a block's last point the column holds the minimum of the block's four tile minima. -/
theorem carried_fst_block (T : ℕ → Fin 1024 → EReal) {m : ℕ} (hm : m % 4 = 0) (r : Fin 1024) :
    (carried T (m + 3)).1 r = min (min (min (min inf32 (T m r)) (T (m + 1) r)) (T (m + 2) r)) (T (m + 3) r) := by
  rw [carried_fst_step T (n := m + 2) (k := m + 3) rfl (by omega) r,
    carried_fst_step T (n := m + 1) (k := m + 2) rfl (by omega) r,
    carried_fst_step T (n := m) (k := m + 1) rfl (by omega) r,
    carried_fst_restart T hm r]

/-- After a batch's first block the sum is the start value plus the column's total. -/
theorem carried_snd_block_first (T : ℕ → Fin 1024 → EReal) {m : ℕ} (hm : m % 16 = 0) :
    (carried T (m + 3)).2 = zero32 + ∑ r, (carried T (m + 3)).1 r := by
  rw [carried_snd_add T (n := m + 2) (k := m + 3) rfl (by omega),
    carried_snd_keep T (n := m + 1) (k := m + 2) rfl (by omega) (by omega),
    carried_snd_keep T (n := m) (k := m + 1) rfl (by omega) (by omega),
    carried_snd_restart T hm]

/-- After each later block of a batch the sum is the sum after the block before plus the column's total. -/
theorem carried_snd_block_next (T : ℕ → Fin 1024 → EReal) {m : ℕ} (hm : m % 4 = 3) (h16 : (m + 1) % 16 ≠ 0) :
    (carried T (m + 4)).2 = (carried T m).2 + ∑ r, (carried T (m + 4)).1 r := by
  rw [carried_snd_add T (n := m + 3) (k := m + 4) rfl (by omega),
    carried_snd_keep T (n := m + 2) (k := m + 3) rfl (by omega) (by omega),
    carried_snd_keep T (n := m + 1) (k := m + 2) rfl (by omega) (by omega),
    carried_snd_keep T (n := m) (k := m + 1) rfl h16 (by omega)]

/-! ## Four tiles of 1024 rows cover the 4096 rows -/

/-- A tile's row depends on the tile only modulo four. -/
theorem tileRow_congr {p p' : ℕ} (h : p % 4 = p' % 4) (r : Fin 1024) : tileRow p r = tileRow p' r := by
  apply Fin.ext
  simp only [tileRow, h]

/-- The rows as pairs of a tile and a row of the tile. -/
def tileEquiv : Fin 4 × Fin 1024 ≃ Fin 4096 where
  toFun x := tileRow x.1.val x.2
  invFun j := (⟨j.val / 1024, by have := j.isLt; omega⟩, ⟨j.val % 1024, Nat.mod_lt _ (by norm_num)⟩)
  left_inv := by
    rintro ⟨p, r⟩
    have hp := p.isLt
    have hr := r.isLt
    apply Prod.ext
    · apply Fin.ext
      simp only [tileRow]
      omega
    · apply Fin.ext
      simp only [tileRow]
      omega
  right_inv := by
    intro j
    have hj := j.isLt
    apply Fin.ext
    simp only [tileRow]
    omega

/-- Every row is a row of one of the four tiles. -/
theorem exists_tileRow (j : Fin 4096) : ∃ o : ℕ, o < 4 ∧ ∃ q : Fin 1024, j = tileRow o q := by
  have hj := j.isLt
  refine ⟨j.val / 1024, by omega, ⟨j.val % 1024, Nat.mod_lt _ (by norm_num)⟩, ?_⟩
  apply Fin.ext
  simp only [tileRow]
  omega

/-- A sum over the 4096 rows is the sum of the four tiles' sums. -/
theorem sum_tiles (F : Fin 4096 → EReal) :
    ∑ i, F i = (∑ r, F (tileRow 0 r)) + (∑ r, F (tileRow 1 r)) + (∑ r, F (tileRow 2 r)) + (∑ r, F (tileRow 3 r)) := by
  rw [← Equiv.sum_comp tileEquiv F, Fintype.sum_prod_type, Fin.sum_univ_four]
  rfl

/-- A minimum over the 4096 rows, from any start value, is the minimum of the four tiles' minima from that value. -/
theorem fold_min_tiles (a : EReal) (c : Fin 4096 → EReal) :
    (Finset.univ : Finset (Fin 4096)).fold min a c
      = min (min (min (min a ((Finset.univ : Finset (Fin 1024)).fold min a fun q => c (tileRow 0 q)))
          ((Finset.univ : Finset (Fin 1024)).fold min a fun q => c (tileRow 1 q)))
          ((Finset.univ : Finset (Fin 1024)).fold min a fun q => c (tileRow 2 q)))
          ((Finset.univ : Finset (Fin 1024)).fold min a fun q => c (tileRow 3 q)) := by
  refine eq_of_forall_le_iff fun x => ?_
  simp only [Finset.le_fold_min, le_min_iff, Finset.mem_univ, forall_const]
  constructor
  · rintro ⟨ha, h⟩
    exact ⟨⟨⟨⟨ha, ha, fun q => h _⟩, ha, fun q => h _⟩, ha, fun q => h _⟩, ha, fun q => h _⟩
  · rintro ⟨⟨⟨⟨ha, -, h0⟩, -, h1⟩, -, h2⟩, -, h3⟩
    refine ⟨ha, fun j => ?_⟩
    obtain ⟨o, ho, q, rfl⟩ := exists_tileRow j
    interval_cases o
    · exact h0 q
    · exact h1 q
    · exact h2 q
    · exact h3 q

/-! ## The tile minima of the data -/

/-- The tile minimum of point \`16·b + 4·p + o\` at row \`r\`: over column tile \`o\` of batch \`b\`, against source row \`r\` of
    row tile \`p\`. -/
theorem tileMin_eq (A B : Fin 4 → Fin 4096 → Fin 256 → EReal) (b : Fin 4) (p o n : ℕ) (hp : p < 4) (ho : o < 4)
    (hn : n = 16 * b.val + 4 * p + o) (r : Fin 1024) :
    tileMin A B n r
      = (Finset.univ : Finset (Fin 1024)).fold min inf32 fun q => cost (A b (tileRow p r)) (B b (tileRow o q)) := by
  have hb := b.isLt
  have h1 : batchOf n = b := by
    apply Fin.ext
    simp only [batchOf]
    omega
  have h2 : tileRow (n / 4) r = tileRow p r := tileRow_congr (by omega) r
  have h3 : ∀ q, tileRow n q = tileRow o q := fun q => tileRow_congr (by omega) q
  unfold tileMin
  rw [h1, h2]
  simp only [h3]

/-- After the last point of block \`p\` of batch \`b\` the column holds, at row \`r\`, the minimum over every target row of
    the cost against source row \`r\` of row tile \`p\`. -/
theorem carried_fst_final (A B : Fin 4 → Fin 4096 → Fin 256 → EReal) (b : Fin 4) (p n : ℕ) (hp : p < 4)
    (hn : n = 16 * b.val + 4 * p + 3) (r : Fin 1024) :
    (carried (tileMin A B) n).1 r
      = (Finset.univ : Finset (Fin 4096)).fold min inf32 fun j => cost (A b (tileRow p r)) (B b j) := by
  subst hn
  rw [carried_fst_block (tileMin A B) (m := 16 * b.val + 4 * p) (by omega) r,
    fold_min_tiles inf32 fun j => cost (A b (tileRow p r)) (B b j),
    tileMin_eq A B b p 0 (16 * b.val + 4 * p) hp (by norm_num) (by omega) r,
    tileMin_eq A B b p 1 (16 * b.val + 4 * p + 1) hp (by norm_num) rfl r,
    tileMin_eq A B b p 2 (16 * b.val + 4 * p + 2) hp (by norm_num) rfl r,
    tileMin_eq A B b p 3 (16 * b.val + 4 * p + 3) hp (by norm_num) rfl r]

/-! ## The result -/

/-- After the last point of batch \`b\` the tiled recursion over the data's tile minima holds the sum over every source row
    of the row's minimum cost; divided by the number of rows that is the batch's mean row minimum. -/
theorem carried_final (A B : Fin 4 → Fin 4096 → Fin 256 → EReal) (b : Fin 4) :
    Ideal.div (carried (tileMin A B) (16 * b.val + 15)).2 n32 = meanRowMin (A b) (B b) := by
  have hb := b.isLt
  have e0 := carried_snd_block_first (tileMin A B) (m := 16 * b.val) (by omega)
  have e1 := carried_snd_block_next (tileMin A B) (m := 16 * b.val + 3) (by omega) (by omega)
  have e2 := carried_snd_block_next (tileMin A B) (m := 16 * b.val + 3 + 4) (by omega) (by omega)
  have e3 := carried_snd_block_next (tileMin A B) (m := 16 * b.val + 3 + 4 + 4) (by omega) (by omega)
  have hidx : 16 * b.val + 15 = 16 * b.val + 3 + 4 + 4 + 4 := by omega
  unfold meanRowMin
  rw [hidx, e3, e2, e1, e0,
    sum_tiles fun i => (Finset.univ : Finset (Fin 4096)).fold min inf32 fun j => cost (A b i) (B b j)]
  simp only [carried_fst_final A B b 0 (16 * b.val + 3) (by norm_num) (by omega),
    carried_fst_final A B b 1 (16 * b.val + 3 + 4) (by norm_num) (by omega),
    carried_fst_final A B b 2 (16 * b.val + 3 + 4 + 4) (by norm_num) (by omega),
    carried_fst_final A B b 3 (16 * b.val + 3 + 4 + 4 + 4) (by norm_num) (by omega)]
  simp only [add_assoc]

end Cert.MeanRowMin

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.PayloadValue.lean ====
/-
  The kernel body's arithmetic read at an index, over the extended reals.

  The running-minimum column: with the leading unit axis of the two loaded blocks dropped, `x r` and `y q` their rows
  (256 long), the product `∑ k, x r k · y q k`, the squared norms `∑ k, x r k²` and `∑ k, y q k²` kept as a column and,
  transposed, as a row, both spread over the 1024 × 1024 tile, the tile `max ((‖x r‖² + ‖y q‖²) - 2 · ⟨x r, y q⟩) 0` is
  `cost (x r) (y q)`; its row minimum from `+∞` over `q`, met with the carried column, is the new column. The running
  sum: the carried sum plus the column's total. The result lane: the sum divided by 4096. The two restarts: `0` and `+∞`.
-/
import proofs.«109294_j17540646437408_1_alg».proof.Proof.Gen.KernelIdeal.Skeleton
import proofs.«109294_j17540646437408_1_alg».proof.Proof.Spec
import proofs.«109294_j17540646437408_1_alg».proof.Proof.LibPlainMatmul
import Idealize.ShloMosaic.Lib.ValueLayout
import Idealize.ShloMosaic.PureOps.Ideal.Laws

noncomputable section

open scoped BigOperators
open Cert.KernelIdeal Cert.KernelIdeal.Gen Cert.MeanRowMin Idealize.ShloMosaic Idealize.ShloMosaic.ValueIdx

namespace Cert.KernelIdeal.PayloadValue

/-! ## Layout operations on a column, read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a one-axis reduction inserts its coordinate into -/

/-- Over row `r` of a `[1024, 256]` array, coordinate `k` on axis 1 is `(r, k)`. -/
theorem lift_row256 (h : S1024x256.Reduces [1] S1024) (r : Fin 1024) (k : Fin 256) :
    h.lift (ix1 r) k = ix2 r k :=
  funext fun a => Fin.ext (by
    match a with
    | ⟨0, _⟩ => rfl
    | ⟨1, _⟩ => rfl)

/-- Over row `r` of a `[1024, 1024]` array, coordinate `q` on axis 1 is `(r, q)`. -/
theorem lift_row1024 (h : S1024x1024.Reduces [1] S1024) (r : Fin 1024) (q : Fin 1024) :
    h.lift (ix1 r) q = ix2 r q :=
  funext fun a => Fin.ext (by
    match a with
    | ⟨0, _⟩ => rfl
    | ⟨1, _⟩ => rfl)

/-- Over the one index of the total, row `k` of a `[1024, 1]` column on axis 0 is `(k, 0)`. -/
theorem lift_col (h : S1024x1.Reduces [0] S1) (k : Fin 1024) :
    h.lift (ix1 (0 : Fin 1)) k = ix2 k (0 : Fin 1) :=
  funext fun a => Fin.ext (by
    match a with
    | ⟨0, _⟩ => rfl
    | ⟨1, _⟩ => rfl)

/-! ## The product's index maps

At result index `i` and contraction index `q` the left operand is read at `(i 0, q)` and the right one at `(q, i 1)`. -/

theorem lhs_dot_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_dot_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_dot_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_dot_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of the rows of `v1` with the rows of `v3`, read at `(r, q)`. -/
theorem xy_apply (v1 v3 : FVec Ideal S1024x256 .f32) (r q : Fin 1024) :
    matmul dot_S1024x256_S256x1024_S1024x1024_1_0_0_1_n_n none (truncf .bf16 v1 bitsLt_bf16_f32)
        (transpose S256x1024 [1, 0] (truncf .bf16 v3 bitsLt_bf16_f32) transposes_S1024x256_p1_0_S256x1024)
        (constant (F := Ideal) S1024x1024 .f32 0x00000000#32) (ix2 r q)
      = ∑ k : Fin 256, v1 (ix2 r k) * v3 (ix2 q k) := by
  refine (Cert.LibPlainMatmul.matmul_zero_apply dot_S1024x256_S256x1024_S1024x1024_1_0_0_1_n_n none rfl rfl
    lhs_dot_0 lhs_dot_1 rhs_dot_0 rhs_dot_1 _ _ r q).trans ?_
  refine Finset.sum_congr rfl fun k _ => ?_
  rw [transpose_ix2_apply]
  rfl

/-- The squared norm of row `r` of `v`, kept as a column, read at `(r, 0)`. -/
theorem sqnorm_apply (v : FVec Ideal S1024x256 .f32) (r : Fin 1024) (u : Fin 1) :
    shapeCast S1024x1 (multiReduction (F := Ideal) .add [1] S1024 (mulf v v) 0x00000000#32 reduces_S1024x256_S1024 (.inl rfl) rfl)
        shapeCasts_S1024_S1024x1 (ix2 r u)
      = ∑ k : Fin 256, v (ix2 r k) * v (ix2 r k) := by
  rw [shapeCast_a_a1_apply]
  refine (Ideal.multiReduction_add_single (mulf v v) _ reduces_S1024x256_S1024 _ _ _).trans ?_
  exact Finset.sum_congr rfl fun k _ => congrArg (fun i => v i * v i) (lift_row256 _ r k)

/-- The clipped squared distance tile read at `(r, q)`. -/
theorem tile_apply (v1 v3 : FVec Ideal S1024x256 .f32) (r q : Fin 1024) :
    maximumf
        (subf
          (addf
            (broadcastTo S1024x1024
              (shapeCast S1024x1 (multiReduction (F := Ideal) .add [1] S1024 (mulf v1 v1) 0x00000000#32 reduces_S1024x256_S1024 (.inl rfl) rfl) shapeCasts_S1024_S1024x1)
              broadcasts_S1024x1_S1024x1024)
            (broadcastTo S1024x1024
              (transpose S1x1024 [1, 0]
                (shapeCast S1024x1 (multiReduction (F := Ideal) .add [1] S1024 (mulf v3 v3) 0x00000000#32 reduces_S1024x256_S1024 (.inl rfl) rfl) shapeCasts_S1024_S1024x1)
                transposes_S1024x1_p1_0_S1x1024)
              broadcasts_S1x1024_S1024x1024))
          (mulf (broadcast S1024x1024 (Scalar.ofBits (F := Ideal) .f32 0x40000000#32))
            (matmul dot_S1024x256_S256x1024_S1024x1024_1_0_0_1_n_n none (truncf .bf16 v1 bitsLt_bf16_f32)
              (transpose S256x1024 [1, 0] (truncf .bf16 v3 bitsLt_bf16_f32) transposes_S1024x256_p1_0_S256x1024)
              (constant (F := Ideal) S1024x1024 .f32 0x00000000#32))))
        (broadcast S1024x1024 (Scalar.ofBits (F := Ideal) .f32 0x00000000#32)) (ix2 r q)
      = cost (fun k => v1 (ix2 r k)) (fun k => v3 (ix2 q k)) := by
  rw [maximumf_apply, subf_apply, addf_apply, mulf_apply, xy_apply, broadcastTo_a1_ab_apply, sqnorm_apply,
    broadcastTo_1b_ab_apply, transpose_ix2_apply, sqnorm_apply]
  rfl

/-- A minimum reduction over one axis, read at the extended reals: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-! ## The payloads -/

/-- The column stored back is the column computed. -/
theorem pay1_eq {F : FTy → Type} [FloatOps F] (v : FVec F S1024x1 .f32) : k0_pay1 v = v :=
  shapeCast_self v _

/-- The result lane: the running sum divided by 4096. -/
theorem pay3_apply (v46 : Vec Ideal S1x1 .f32) (l : Fin 128) :
    k0_pay3 (F := Ideal) v46 (ix3 0 0 l) = Ideal.div (v46 (ix2 0 0)) n32 := by
  unfold k0_pay3
  rw [shapeCast_ab_1ab_apply, shapeCast_self]
  refine (broadcastTo_apply _ _ (ix2 (0 : Fin 1) l) (ix2 (0 : Fin 1) (0 : Fin 1)) fun a => ?_).trans ?_
  · match a with
    | ⟨0, _⟩ => rfl
    | ⟨1, _⟩ => rfl
  · rfl

/-- The running sum increased by the column's total. -/
theorem pay2_apply (v46 : Vec Ideal S1024x1 .f32) (v49 : Vec Ideal S1x1 .f32) :
    k0_pay2 (F := Ideal) v46 v49 (ix2 0 0) = v49 (ix2 0 0) + ∑ r : Fin 1024, v46 (ix2 r 0) := by
  unfold k0_pay2
  rw [shapeCast_self, addf_apply, shapeCast_a_1a_apply]
  refine congrArg (v49 (ix2 0 0) + ·) ?_
  refine (Ideal.multiReduction_add_single v46 _ reduces_S1024x1_S1 _ _ _).trans ?_
  exact Finset.sum_congr rfl fun k _ => congrArg v46 (lift_col _ k)

/-- The running sum restarts from zero. -/
theorem pay4_apply : k0_pay4 (F := Ideal) (ix2 0 0) = zero32 := by
  unfold k0_pay4
  rw [shapeCast_self]
  rfl

/-- The running minima restart from `+∞`. -/
theorem pay5_apply (r : Fin 1024) : k0_pay5 (F := Ideal) (ix2 r 0) = inf32 := by
  unfold k0_pay5
  rw [shapeCast_self]
  rfl

/-- The new column of running minima: the carried one met with the tile's row minima. -/
theorem pay6_apply (v0 v2 : Vec Ideal S1x1024x256 .f32) (v33 : Vec Ideal S1024x1 .f32) (r : Fin 1024) :
    k0_pay6 (F := Ideal) v0 v2 v33 (ix2 r 0)
      = min (v33 (ix2 r 0)) ((Finset.univ : Finset (Fin 1024)).fold min inf32
          (fun q => cost (fun k => v0 (ix3 0 r k)) (fun k => v2 (ix3 0 q k)))) := by
  unfold k0_pay6
  rw [minimumf_apply, shapeCast_a_a1_apply]
  refine congrArg (min (v33 (ix2 r 0))) ?_
  refine (multiReduction_minimumf_single _ _ reduces_S1024x1024_S1024 _ _ _).trans ?_
  refine congrArg (fun f => Finset.fold min inf32 f (Finset.univ : Finset (Fin 1024))) (funext fun q => ?_)
  refine (congrArg _ (lift_row1024 _ r q)).trans ?_
  refine (tile_apply _ _ r q).trans ?_
  congr 1 <;> funext k <;> exact shapeCast_1ab_ab_apply _ _ _ _

end Cert.KernelIdeal.PayloadValue

end
-- ==== Proof.KernelValue.lean ====
/-
  What the tiled program's result buffer holds, at the ideal instance.

  The program visits 64 grid points `n = 16·b + 4·p + o`. At point `n` the body reads row tile `p` of batch `b` of the
  first argument and row tile `o` of batch `b` of the second (`xblk_apply`, `yblk_apply`), forms the tile's row minima
  of the clipped squared-distance cost, and updates two carried accumulators: a column of 1024 running minima and one
  running sum. `acc_eq` shows by induction on the point that after point `n` they hold exactly the recursion
  `carried` of the specification, run over the arguments' tile minima; at the last point of a batch the body stores the
  running sum divided by 4096 into the batch's output row (`out_eq`), the four such rows cover the output array
  (`final_out`), and the program's result is lane 0 of each row (`tail_eq`). The recursion's closed form
  (`carried_final`) then says the result is, batch by batch, the mean over the source rows of the minimum cost against
  every target row (`run`).
-/
import proofs.«109294_j17540646437408_1_alg».proof.Proof.Pieces
import proofs.«109294_j17540646437408_1_alg».proof.Proof.Fold
import proofs.«109294_j17540646437408_1_alg».proof.Proof.PayloadValue
import Idealize.ShloMosaic.Lib.StableHlo.Run
import proofs.«109294_j17540646437408_1_alg».proof.Proof.Spec
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen Cert.KernelIdeal.Pieces Cert.KernelIdeal.PayloadValue Cert.MeanRowMin

variable (m : (ℓ : Loc nD τ sig) → Buf (Elt Ideal) ℓ)

/-- The first argument as rows: batch, row, entry. -/
def srcRows (c : Dev nD) : Fin 4 → Fin 4096 → Fin 256 → EReal :=
  fun b i k => m ((c : Thread nD τ).loc main_arg0) (ix3 b i k)
/-- The second argument as rows. -/
def tgtRows (c : Dev nD) : Fin 4 → Fin 4096 → Fin 256 → EReal :=
  fun b i k => m ((c : Thread nD τ).loc main_arg1) (ix3 b i k)

/-- The two blocks the body loads at point `t`, at their literal vector type. -/
abbrev xblk (c : Dev nD) (t : Fin cfg0.N) : Vec Ideal S1x1024x256 .f32 := iblk m c 0 t
abbrev yblk (c : Dev nD) (t : Fin cfg0.N) : Vec Ideal S1x1024x256 .f32 := iblk m c 1 t

/-- Which block of each argument point `t` reads: batch `t / 16`, row tile `(t / 4) % 4` of the first, row tile `t % 4` of the second. -/
theorem idx_facts : ∀ t : Fin cfg0.N,
    win0_0.index t 0 = t.val / 16 % 4 ∧ win0_0.index t 1 = t.val / 4 % 4 ∧ win0_0.index t 2 = 0
    ∧ win0_1.index t 0 = t.val / 16 % 4 ∧ win0_1.index t 1 = t.val % 4 ∧ win0_1.index t 2 = 0 :=
  (by decide +kernel : ∀ t : Fin grid0.N, _)

/-- Row `r` of the first block is row `r` of tile `(t / 4) % 4` of batch `t / 16`. -/
theorem xblk_apply (c : Dev nD) (t : Fin cfg0.N) (r : Fin 1024) (k : Fin 256) :
    xblk m c t (ix3 0 r k) = srcRows m c (batchOf t.val) (tileRow (t.val / 4) r) k := by
  unfold xblk iblk srcRows
  rw [View.read_apply]
  show V m c main_arg0 _ = m (c.tc.loc main_arg0) _
  unfold V
  congr 1
  funext a
  apply Fin.ext
  obtain ⟨e0, e1, e2, -, -, -⟩ := idx_facts t
  match a with
  | ⟨0, _⟩ => show win0_0.index t 0 * 1 + 1 * 0 = t.val / 16 % 4; rw [e0]; omega
  | ⟨1, _⟩ => show win0_0.index t 1 * 1024 + 1 * r.val = 1024 * (t.val / 4 % 4) + r.val; rw [e1]; omega
  | ⟨2, _⟩ => show win0_0.index t 2 * 256 + 1 * k.val = k.val; rw [e2]; omega

/-- Row `q` of the second block is row `q` of tile `t % 4` of batch `t / 16`. -/
theorem yblk_apply (c : Dev nD) (t : Fin cfg0.N) (q : Fin 1024) (k : Fin 256) :
    yblk m c t (ix3 0 q k) = tgtRows m c (batchOf t.val) (tileRow t.val q) k := by
  unfold yblk iblk tgtRows
  rw [View.read_apply]
  show V m c main_arg1 _ = m (c.tc.loc main_arg1) _
  unfold V
  congr 1
  funext a
  apply Fin.ext
  obtain ⟨-, -, -, e0, e1, e2⟩ := idx_facts t
  match a with
  | ⟨0, _⟩ => show win0_1.index t 0 * 1 + 1 * 0 = t.val / 16 % 4; rw [e0]; omega
  | ⟨1, _⟩ => show win0_1.index t 1 * 1024 + 1 * q.val = 1024 * (t.val % 4) + q.val; rw [e1]; omega
  | ⟨2, _⟩ => show win0_1.index t 2 * 256 + 1 * k.val = k.val; rw [e2]; omega

/-- The tile minima the arguments give. -/
abbrev T (c : Dev nD) : ℕ → Fin 1024 → EReal := tileMin (srcRows m c) (tgtRows m c)

/-- A column index is its row coordinate; -/
theorem eq_col (j : S1024x1.Idx) : ∃ r : Fin 1024, j = ix2 r 0 :=
  ⟨j 0, funext fun a => by
    match a with
    | ⟨0, _⟩ => rfl
    | ⟨1, _⟩ => exact Fin.ext (by show (j 1).val = 0; have : (j 1).val < 1 := (j 1).isLt; omega)⟩
/-- a one-by-one index is the origin. -/
theorem eq_one (j : S1x1.Idx) : j = ix2 (0 : Fin 1) (0 : Fin 1) :=
  funext fun a => by
    match a with
    | ⟨0, _⟩ => exact Fin.ext (by show (j 0).val = 0; have : (j 0).val < 1 := (j 0).isLt; omega)
    | ⟨1, _⟩ => exact Fin.ext (by show (j 1).val = 0; have : (j 1).val < 1 := (j 1).isLt; omega)

/-- The column a point leaves: each entry the minimum of what it held and the point's tile minimum. -/
theorem col_step (c : Dev nD) (t : Fin cfg0.N) (prev : Vec Ideal S1024x1 .f32) :
    k0_pay1 (k0_pay6 (F := Ideal) (xblk m c t) (yblk m c t) prev) = fun j => min (prev j) (T m c t.val (j 0)) := by
  rw [pay1_eq]
  funext j
  obtain ⟨r, rfl⟩ := eq_col j
  rw [pay6_apply]
  simp only [xblk_apply, yblk_apply]
  rfl

/-- Restarted from the `+∞` column, it is the minimum of `+∞` and the tile minimum. -/
theorem col_restart (c : Dev nD) (t : Fin cfg0.N) :
    k0_pay1 (k0_pay6 (F := Ideal) (xblk m c t) (yblk m c t) (k0_pay5 (F := Ideal))) = fun j => min inf32 (T m c t.val (j 0)) := by
  rw [col_step]
  funext j
  obtain ⟨r, rfl⟩ := eq_col j
  rw [pay5_apply]

/-- The running sum after a finished column: what it held plus the column's total. -/
theorem sum_step (col : Vec Ideal S1024x1 .f32) (s : Vec Ideal S1x1 .f32) :
    k0_pay2 (F := Ideal) col s = fun j => s j + ∑ r : Fin 1024, col (ix2 r 0) := by
  funext j
  rw [eq_one j, pay2_apply]

/-- After point `n` the two carried accumulators hold the recursion's column and sum over the arguments' tile minima. -/
theorem acc_eq (c : Dev nD) : ∀ (n : ℕ) (h : n < cfg0.N),
    (outsAt0 m c n h).2.1 = (fun j => (carried (T m c) n).1 (j 0))
    ∧ (outsAt0 m c n h).2.2 = (fun _ => (carried (T m c) n).2)
  | 0, h => by
    rw [outsAt0_A m c ⟨0, h⟩ rfl rfl (by dsimp only; omega) (by dsimp only; omega)]
    dsimp only
    rw [colA, sumA]
    refine ⟨(col_restart m c ⟨0, h⟩).trans ?_, ?_⟩
    · rfl
    · funext j; rw [eq_one j, pay4_apply]; rfl
  | n + 1, h => by
    have hN : n + 1 < 64 := lt_of_lt_of_eq h (show cfg0.N = 64 from N_0)
    obtain ⟨ihc, ihs⟩ := acc_eq c n (Nat.lt_of_succ_lt h)
    by_cases h0 : (n + 1) % 16 = 0
    · have h1 : (n + 1) % 4 = 0 := by omega
      have h2 : ¬(n + 1) % 4 = 3 := by omega
      have h3 : ¬(n + 1) % 16 = 15 := by omega
      rw [outsAt0_A m c ⟨n + 1, h⟩ h0 h1 h2 h3]
      dsimp only
      rw [colA, sumA]
      refine ⟨(col_restart m c ⟨n + 1, h⟩).trans ?_, ?_⟩
      · funext j; exact (carried_fst_restart (T m c) h1 (j 0)).symm
      · funext j; rw [eq_one j, pay4_apply, carried_snd_restart (T m c) h0]
    · by_cases h1 : (n + 1) % 4 = 0
      · have h2 : ¬(n + 1) % 4 = 3 := by omega
        have h3 : ¬(n + 1) % 16 = 15 := by omega
        rw [outsAt0_D m c ⟨n + 1, h⟩ h0 h1 h2 h3]
        dsimp only
        rw [colD]
        unfold sout0_D_1
        refine ⟨(col_restart m c ⟨n + 1, h⟩).trans ?_, ?_⟩
        · funext j; exact (carried_fst_restart (T m c) h1 (j 0)).symm
        · show (outsAt0 m c n _).2.2 = _
          rw [ihs]; funext j; rw [carried_snd_keep (T m c) rfl h0 h2]
      · have hcol : (fun j : S1024x1.Idx => min ((outsAt0 m c n (Nat.lt_of_succ_lt h)).2.1 j) (T m c (n + 1) (j 0)))
            = fun j => (carried (T m c) (n + 1)).1 (j 0) := by
          funext j; rw [ihc]; exact (carried_fst_step (T m c) rfl h1 (j 0)).symm
        by_cases h2 : (n + 1) % 4 = 3
        · have hsum : (fun j : S1x1.Idx => (outsAt0 m c n (Nat.lt_of_succ_lt h)).2.2 j
              + ∑ r : Fin 1024, min ((outsAt0 m c n (Nat.lt_of_succ_lt h)).2.1 (ix2 r 0)) (T m c (n + 1) r))
              = fun _ => (carried (T m c) (n + 1)).2 := by
            funext j
            rw [ihs, ihc, carried_snd_add (T m c) rfl h2]
            refine congrArg (_ + ·) (Finset.sum_congr rfl fun r _ => ?_)
            exact (carried_fst_step (T m c) rfl h1 r).symm
          by_cases h3 : (n + 1) % 16 = 15
          · rw [outsAt0_E m c ⟨n + 1, h⟩ h0 h1 h2 h3]
            dsimp only
            rw [colE, sumE]
            refine ⟨(col_step m c ⟨n + 1, h⟩ _).trans hcol, ?_⟩
            rw [sum_step, col_step]
            exact hsum
          · rw [outsAt0_C m c ⟨n + 1, h⟩ h0 h1 h2 h3]
            dsimp only
            rw [colC, sumC]
            refine ⟨(col_step m c ⟨n + 1, h⟩ _).trans hcol, ?_⟩
            rw [sum_step, col_step]
            exact hsum
        · have h3 : ¬(n + 1) % 16 = 15 := by omega
          rw [outsAt0_B m c ⟨n + 1, h⟩ h0 h1 h2 h3]
          dsimp only
          rw [colB]
          unfold sout0_B_1
          refine ⟨(col_step m c ⟨n + 1, h⟩ _).trans hcol, ?_⟩
          show (outsAt0 m c n _).2.2 = _
          rw [ihs]; funext j; rw [carried_snd_keep (T m c) rfl h0 h2]

/-- At a batch's last point the output block receives the quotient of the running sum, in every lane. -/
theorem out_eq (c : Dev nD) (t : Fin cfg0.N) (h3 : t.val % 16 = 15) :
    (outsAt0 m c t.val t.isLt).1 = fun _ => Ideal.div (carried (T m c) t.val).2 n32 := by
  have hs := (acc_eq m c t.val t.isLt).2
  have h0 : ¬t.val % 16 = 0 := by omega
  have h1 : ¬t.val % 4 = 0 := by omega
  have h2 : t.val % 4 = 3 := by omega
  rw [outsAt0_E m c t h0 h1 h2 h3] at hs ⊢
  dsimp only at hs ⊢
  rw [outE]
  rw [sumE] at hs
  rw [hs]
  funext j
  obtain ⟨l, rfl⟩ : ∃ l : Fin 128, j = ix3 (0 : Fin 1) (0 : Fin 1) l :=
    ⟨j 2, funext fun a => by
      match a with
      | ⟨0, _⟩ => exact Fin.ext (by show (j 0).val = 0; have : (j 0).val < 1 := (j 0).isLt; omega)
      | ⟨1, _⟩ => exact Fin.ext (by show (j 1).val = 0; have : (j 1).val < 1 := (j 1).isLt; omega)
      | ⟨2, _⟩ => rfl⟩
  rw [pay3_apply]

/-- The output array after the run: every lane of row `b` holds batch `b`'s quotient. -/
def outArr (c : Dev nD) : Buf (Elt Ideal) ((c : Thread nD τ).loc main_v0) :=
  fun i => Ideal.div (carried (T m c) (16 * (i 0).val + 15)).2 n32

/-- The output block of point `t` is row `t / 16`. -/
theorem out_idx : ∀ t : Fin cfg0.N, win0_2.index t 0 = t.val / 16 ∧ win0_2.index t 1 = 0 ∧ win0_2.index t 2 = 0 :=
  (by decide +kernel : ∀ t : Fin grid0.N, _)

/-- What a writing point writes back is its block of that array. -/
theorem flushed_eq (c : Dev nD) (t : Fin cfg0.N) (hf : (cfg0.win 2).flush t = true) :
    (dats m 0 c).flushed 2 t = ((cfg0.win 2).blk t).view.read (Elt Ideal) (outArr m c) := by
  have h3 : t.val % 16 = 15 := (flush0_2 t).mp hf
  show (cfg0.win 2).cut (grid0.coords t) ((dats m 0 c).after 2 t) = _
  rw [after0_2, out_eq m c t h3]
  funext j
  show Ideal.div (carried (T m c) t.val).2 n32 = outArr m c (((cfg0.win 2).blk t).view.emb j)
  unfold outArr
  have e : 16 * ((((cfg0.win 2).blk t).view.emb j) 0).val + 15 = t.val := by
    show 16 * (win0_2.index t 0 * 1 + 1 * (j 0).val) + 15 = t.val
    have := (out_idx t).1
    have : (j 0).val < 1 := (j 0).isLt
    omega
  rw [e]

/-- The four writing points cover the array, so it ends holding `outArr`. -/
theorem final_out (c : Dev nD) : (dats m 0 c).arrAt 2 cfg0.N = outArr m c :=
  (dats m 0 c).arrAt_eq_of_cover 2 (outArr m c) (flushed_eq m c) fun i => by
    have hi0 : (i 0).val < 4 := (i 0).isLt
    have hi1 : (i 1).val < 1 := (i 1).isLt
    have hi2 : (i 2).val < 128 := (i 2).isLt
    have hN : cfg0.N = 64 := N_0
    obtain ⟨t, ht⟩ : ∃ t : Fin cfg0.N, t.val = 16 * (i 0).val + 15 := ⟨⟨16 * (i 0).val + 15, by omega⟩, rfl⟩
    refine ⟨t, (flush0_2 t).mpr (by omega), ?_⟩
    show i ∈ ((View.whole main_v0).slice (win0_2.rect t)).set
    rw [View.set_slice_whole, Rect.mem_set_unit]
    intro a
    obtain ⟨e0, e1, e2⟩ := out_idx t
    match a with
    | ⟨0, _⟩ => show win0_2.index t 0 * 1 ≤ (i 0).val ∧ (i 0).val < win0_2.index t 0 * 1 + 1; rw [e0]; omega
    | ⟨1, _⟩ => show win0_2.index t 1 * 1 ≤ (i 1).val ∧ (i 1).val < win0_2.index t 1 * 1 + 1; rw [e1]; omega
    | ⟨2, _⟩ => show win0_2.index t 2 * 128 ≤ (i 2).val ∧ (i 2).val < win0_2.index t 2 * 128 + 128; rw [e2]; omega

/-- The program's result: the slice of lane 0 of each row of the output array, as a vector of four. -/
theorem tail_eq (c : Dev nD) :
    Pipeline.afterTail₀ cfgs (dats m) 0 (V0 m) [hostOps1] c main_v2
      = fun i => Ideal.div (carried (T m c) (16 * (i 0).val + 15)).2 n32 := by
  have e : Pipeline.withArrays spec0 c (V0 m c) (fun w => (dats m 0 c).arrAt w cfg0.N) (Proc.devRef .tc main_v0) = outArr m c :=
    (Pipeline.withArrays_arr spec0 launch0.win.arr_inj c (V0 m c) (fun w => (dats m 0 c).arrAt w cfg0.N) 2).trans (final_out m c)
  unfold Pipeline.afterTail₀
  show StableHlo.after hostOps1 _ (Proc.devRef .tc main_v2) = _
  after_results
  funext i
  obtain ⟨b, rfl⟩ : ∃ b : Fin 4, i = ix1 b := ⟨i 0, eq_ix1 i⟩
  show shapeCast S4 (extractStridedSlice S4x1x1 ![0, 0, 0] (Pipeline.withArrays spec0 c (V0 m c) (fun w => (dats m 0 c).arrAt w cfg0.N) (Proc.devRef .tc main_v0)) slices_S4x1x128_S4x1x1_0_0_0) shapeCasts_S4x1x1_S4 (ix1 b) = _
  rw [e]
  rw [shapeCast_apply _ _ _ (ix3 b (0 : Fin 1) (0 : Fin 1)) (by
    rw [Shape.rowMajor_val_three, Shape.rowMajor_val_one]
    show (b.val * 1 + 0) * 1 + 0 = b.val
    omega)]
  rw [extractStridedSlice_apply _ _ _ _ (ix3 b (0 : Fin 1) (0 : Fin 128)) (fun a => by
    match a with
    | ⟨0, _⟩ => show b.val = 0 + b.val; omega
    | ⟨1, _⟩ => rfl
    | ⟨2, _⟩ => rfl)]
  rfl

variable (ρ : Dev nD → PrngReg)

/-- Every execution ends with the result buffer at the batch-wise mean of row minima and the arguments unchanged. -/
theorem run : θ_run defs (onTc (τ := τ) (main (F := Ideal))) ⟨m, fun _ => 0, ρ⟩ fun r => ∀ c : Dev nD,
      r.2.mem ((c.tc : Thread nD τ).loc main_v2) = (fun i => meanRowMin (srcRows m c (i 0)) (tgtRows m c (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (by decide)).trans ((tail_eq m c).trans (funext fun i => carried_final (srcRows m c) (tgtRows m c) (i 0))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference program read as the specification.

  For each batch `b` the reference forms the row norms `0 + ∑ k, x b r k²` and `0 + ∑ k, y b q k²`, the products
  `∑ k, x b r k · y b q k`, the clipped cost `max ((‖x b r‖² + ‖y b q‖²) − 2 · ⟨x b r, y b q⟩) 0` of every pair of rows,
  its minimum over `q` from `+∞`, the sum of those minima over `r` from `0`, and the quotient by `4096`. Read index
  by index that is `meanRowMin` of batch `b`'s rows: the transposes and broadcasts only permute coordinates, and the
  leading zero of each row norm is absorbed (`0 + s = s`), while the outer sum keeps its start `0` and the minimum its
  start `+∞`, as `meanRowMin` has them.

  `cost_apply`: the clipped cost stage at `(b, r, q)`. `rowMin_apply`: the minimum stage at `(b, r)`, a fold over the
  last axis. `result_eq`: the last stage is `meanRowMin` batch by batch. `run_result_eq`: the same of the composed
  term the run leaves in the result buffer.
-/
import proofs.«109294_j17540646437408_1_alg».proof.Proof.Gen.ReferenceIdeal.Read
import proofs.«109294_j17540646437408_1_alg».proof.Proof.Spec

noncomputable section

open scoped BigOperators

namespace Cert.ReferenceIdeal.RefValue

open Cert.ReferenceIdeal Cert.ReferenceIdeal.Gen Cert.ReferenceIdeal.Read Cert.MeanRowMin
open Idealize.ShloMosaic Idealize.ShloMosaic.ValueIdx Idealize.ShloMosaic.TcCoe Idealize.SL.Sem Idealize.ShloMosaic.StableHlo

/-- The last axis of a [4, 4096, 4096] array is the one the minimum runs over. -/
theorem reduces_last : S4x4096x4096.Reduces [2] S4x4096 := by decide

/-- The index over `(b, r)` with `q` inserted on the last axis is `(b, r, q)`. -/
theorem lift_eq (b : Fin 4) (r q : Fin 4096) : reduces_last.lift (ix2 b r) q = ix3 b r q := by
  funext a
  apply Fin.ext
  match a with
  | ⟨0, _⟩ => rfl
  | ⟨1, _⟩ => rfl
  | ⟨2, _⟩ => rfl

/-- The clipped cost stage at `(b, r, q)`: the cost of row `r` of `x` against row `q` of `y`, both of batch `b`. -/
theorem cost_apply (x y : (⟨S4x4096x256, .f32⟩ : BufTy).Contents (Elt Ideal)) (b : Fin 4) (r q : Fin 4096) :
    val_main_v15 (F := Ideal) x y (ix3 b r q) = cost (fun k => x (ix3 b r k)) (fun k => y (ix3 b q k)) := by
  -- the row norm of `x` is read through two broadcasts: its summand sits at `(b, r, k)`
  have ex : ∀ k : Fin 256, idx_main_v1 (idx_main_v2 (idx_main_v8 (ix3 b r q))) k = ix3 b r k := fun k =>
    funext fun a => by match a with | ⟨0, _⟩ => rfl | ⟨1, _⟩ => rfl | ⟨2, _⟩ => rfl
  -- the row norm of `y` through a broadcast, the transpose and a broadcast: its summand sits at `(b, q, k)`
  have ey : ∀ k : Fin 256, idx_main_v4 (idx_main_v5 (idx_main_v7 (idx_main_v9 (ix3 b r q)))) k = ix3 b q k := fun k =>
    funext fun a => by match a with | ⟨0, _⟩ => rfl | ⟨1, _⟩ => rfl | ⟨2, _⟩ => rfl
  -- the product's two factors
  have el : ∀ k : Fin 256, lidx_main_v6 (ix3 b r q) k = ix3 b r k := fun k =>
    funext fun a => by match a with | ⟨0, _⟩ => rfl | ⟨1, _⟩ => rfl | ⟨2, _⟩ => rfl
  have er : ∀ k : Fin 256, ridx_main_v6 (ix3 b r q) k = ix3 b q k := fun k =>
    funext fun a => by match a with | ⟨0, _⟩ => rfl | ⟨1, _⟩ => rfl | ⟨2, _⟩ => rfl
  rw [val_main_v15_apply, val_main_v13_apply, val_main_v10_apply, val_main_v8_apply, val_main_v2_apply, val_main_v1_apply,
    val_main_v9_apply, val_main_v7_apply, val_main_v5_apply, val_main_v4_apply, val_main_v12_apply, val_main_v11_apply,
    val_main_v6_apply, val_main_v14_apply, val_main_cst_apply, val_main_cst_0_apply, val_main_cst_1_apply, val_main_cst_2_apply]
  simp only [val_main_v0_apply, val_main_v3_apply, ex, ey, el, er, Ideal.ofBits_def, Ideal.addf_def, Ideal.subf_def,
    Ideal.mulf_def, Ideal.maximumf_def]
  unfold cost
  simp only [Ideal.ofBits_zero_f32, zero_add]

/-- The minimum stage at `(b, r)`: the fold of `min` from `+∞` over the rows `q` of `y` of the cost against row `r` of `x`. -/
theorem rowMin_apply (x y : (⟨S4x4096x256, .f32⟩ : BufTy).Contents (Elt Ideal)) (b : Fin 4) (r : Fin 4096) :
    val_main_v16 (F := Ideal) x y (ix2 b r)
      = (Finset.univ : Finset (Fin 4096)).fold min inf32 (fun q => cost (fun k => x (ix3 b r k)) (fun k => y (ix3 b q k))) := by
  unfold val_main_v16
  rw [Host.reduce_eq_fold_single (FloatOps.minimumf (F := Ideal) (φ := .f32)) (val_main_v15 (F := Ideal) x y)
    (val_main_cst_3 (F := Ideal)) reducesTo_S4x4096x4096_S4x4096_d2 reduces_last h_S_ (ix2 b r)]
  show (Finset.univ : Finset (Fin 4096)).fold min inf32
    (fun q => val_main_v15 (F := Ideal) x y (reduces_last.lift (ix2 b r) q)) = _
  exact Finset.fold_congr (fun q _ =>
    (congrArg (val_main_v15 (F := Ideal) x y) (lift_eq b r q)).trans (cost_apply x y b r q))

/-- The reference's result, batch by batch, is the mean over the rows of `x` of the minimum cost against the rows of `y`. -/
theorem result_eq (x y : (⟨S4x4096x256, .f32⟩ : BufTy).Contents (Elt Ideal)) :
    (val_main_v19 (F := Ideal) x y : S4.Idx → EReal)
      = fun i => meanRowMin (fun a k => x (ix3 (i 0) a k)) (fun a k => y (ix3 (i 0) a k)) := by
  funext i
  -- row `r` of the outer sum is read at `(i 0, r)`
  have e17 : ∀ r : Fin 4096, idx_main_v17 i r = ix2 (i 0) r := fun r =>
    funext fun a => by match a with | ⟨0, _⟩ => rfl | ⟨1, _⟩ => rfl
  rw [val_main_v19_apply, val_main_v17_apply, val_main_v18_apply, val_main_cst_5_apply, val_main_cst_4_apply,
    Ideal.hostDivf_def]
  show Ideal.div (zero32 + ∑ r : Fin 4096, val_main_v16 (F := Ideal) x y (idx_main_v17 i r)) n32 = _
  unfold meanRowMin
  exact congrArg (fun s => Ideal.div (zero32 + s) n32) (Finset.sum_congr rfl fun r _ =>
    (congrArg (val_main_v16 (F := Ideal) x y) (e17 r)).trans (rowMin_apply x y (i 0) r))

/-- The term the run leaves in the result buffer, as a function of the two arguments' contents, is that function. -/
theorem run_result_eq (x y : (⟨S4x4096x256, .f32⟩ : BufTy).Contents (Elt Ideal)) :
    (Host.divf (F := Ideal) (Host.reduceAdd (Host.reduce FloatOps.minimumf (maximumf (subf (addf (broadcastInDim S4x4096x4096 ![0, 1, 2] bcast_S4x4096x1_S4x4096x4096_0_1_2 (broadcastInDim S4x4096x1 ![0, 1] bcast_S4x4096_S4x4096x1_0_1 (Host.reduceAdd (mulf (x) (x)) (constant S_ .f32 0x00000000#32) reducesTo_S4x4096x256_S4x4096_d2 h_S_))) (broadcastInDim S4x4096x4096 ![0, 1, 2] bcast_S4x1x4096_S4x4096x4096_0_1_2 (transpose S4x1x4096 [0, 2, 1] (broadcastInDim S4x4096x1 ![0, 1] bcast_S4x4096_S4x4096x1_0_1 (Host.reduceAdd (mulf (y) (y)) (constant S_ .f32 0x00000000#32) reducesTo_S4x4096x256_S4x4096_d2 h_S_)) transposes_S4x4096x1_S4x1x4096_0_2_1))) (mulf (broadcastInDim S4x4096x4096 ![] bcast_S_S4x4096x4096 (constant S_ .f32 0x40000000#32)) (Host.dotGeneral (φ₁ := .f32) (φ₂ := .f32) dot_S4x4096x256_S4x4096x256_S4x4096x4096_2_2_1_1_0_0 none (x) (y)))) (broadcastInDim S4x4096x4096 ![] bcast_S_S4x4096x4096 (constant S_ .f32 0x00000000#32))) (constant S_ .f32 0x7F800000#32) reducesTo_S4x4096x4096_S4x4096_d2 h_S_) (constant S_ .f32 0x00000000#32) reducesTo_S4x4096_S4_d1 h_S_) (broadcastInDim S4 ![] bcast_S_S4 (constant S_ .f32 0x45800000#32)) : S4.Idx → EReal)
      = fun i => meanRowMin (fun a k => x (ix3 (i 0) a k)) (fun a k => y (ix3 (i 0) a k)) :=
  (val_main_v19_eq (F := Ideal) x y).trans (result_eq x y)

end Cert.ReferenceIdeal.RefValue

end
-- ==== Proof.lean ====
/-
  The certificate: a tiled mean-of-row-minima of clipped squared distances against its plain reference.

  Both programs take two arrays of 4 batches × 4096 rows × 256 entries. For each batch the result is
  `(0 + ∑ i, min_j max ((‖x i‖² + ‖y j‖²) − 2 · ⟨x i, y j⟩) 0) / 4096`. The reference computes it in one pass over whole
  arrays; the kernel visits 4 × 4 tiles of 1024 × 1024 costs per batch, keeps a column of running row minima across the
  column tiles and a running sum across the row tiles, and writes the quotient at the batch's last tile. Over the extended
  reals the minimum and the sum may be regrouped freely (both are commutative and associative, `+∞` is neutral for the
  minimum), the bf16 rounding of the product's operands is the identity, and the same four constants appear on both
  sides, so the two results are equal element by element with no use of the inputs' finiteness.

  The kernel's two frames are the generated frame runs; the reference's frame is its generated run with the result
  dropped; the idealization rewrote nothing; the algebraic claim puts the kernel's run (Proof/KernelValue.lean) beside the
  reference's run read as the same specification (Proof/RefValue.lean).
-/
import proofs.«109294_j17540646437408_1_alg».proof.Defs
import proofs.«109294_j17540646437408_1_alg».proof.Proof.Gen.Kernel
import proofs.«109294_j17540646437408_1_alg».proof.Proof.Gen.Kernel.Skeleton
import proofs.«109294_j17540646437408_1_alg».proof.Proof.Gen.Kernel.Launch
import proofs.«109294_j17540646437408_1_alg».proof.Proof.Gen.Kernel.Points
import proofs.«109294_j17540646437408_1_alg».proof.Proof.Gen.Kernel.Frame
import proofs.«109294_j17540646437408_1_alg».proof.Proof.Gen.KernelIdeal
import proofs.«109294_j17540646437408_1_alg».proof.Proof.Gen.KernelIdeal.Skeleton
import proofs.«109294_j17540646437408_1_alg».proof.Proof.Gen.KernelIdeal.Launch
import proofs.«109294_j17540646437408_1_alg».proof.Proof.Gen.KernelIdeal.Points
import proofs.«109294_j17540646437408_1_alg».proof.Proof.Gen.KernelIdeal.Frame
import proofs.«109294_j17540646437408_1_alg».proof.Proof.Gen.ReferenceIdeal
import proofs.«109294_j17540646437408_1_alg».proof.Proof.Gen.ReferenceIdeal.Run
import proofs.«109294_j17540646437408_1_alg».proof.Proof.Gen.ReferenceIdeal.Read
import proofs.«109294_j17540646437408_1_alg».proof.Proof.Gen.Pre_finite_inputs
import proofs.«109294_j17540646437408_1_alg».proof.Proof.KernelValue
import proofs.«109294_j17540646437408_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both runs end with the result buffer at the batch-wise mean of row minima of arguments that agree. -/
theorem algebraic : Cert.algebraic_KernelIdeal_ReferenceIdeal := by
  intro m ρ m' ρ' _ hagree
  refine ⟨fun c i => Cert.MeanRowMin.meanRowMin (Cert.KernelIdeal.KValue.srcRows m c (i 0)) (Cert.KernelIdeal.KValue.tgtRows m c (i 0)),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.RefValue.run_result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
